-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S5000x128 : Shape := ⟨2, ![5000, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S5000x128 : S_.BroadcastsInDim S5000x128 (![] : Fin 0 → Fin S5000x128.rank)
  reducesTo_S5000x128_S_d0_1 : S5000x128.ReducesTo [0, 1] S_

variable [Facts]

def fn {F : FTy → Type} [FloatOps F] (main_arg0 : FVec F S10000x10000 .f32) (main_arg1 : FVec F S5000x128 .f32) (main_arg2 : FVec F S5000x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S5000x128 .f32 := Host.absf main_arg1
  let main_cst_0 : FVec F S_ .f32 := constant S_ .f32 0x7F800000#32
  let main_v5 : FVec F S5000x128 .f32 := broadcastInDim S5000x128 ![] bcast_S_S5000x128 main_cst_0
  let main_v6 : IVec S5000x128 1 := cmpf .olt main_v4 main_v5
  let main_c_1 : IVec S_ 1 := constantI S_ 1 1#1
  let main_v7 : IVec S_ 1 := (fun x v => Host.reduce IntOp.andi x v reducesTo_S5000x128_S_d0_1 h_S_) main_v6 main_c_1
  let main_v8 : IVec S_ 1 := andi main_v3 main_v7
  let main_v9 : FVec F S5000x128 .f32 := Host.absf main_arg2
  let main_cst_2 : FVec F S_ .f32 := constant S_ .f32 0x7F800000#32
  let main_v10 : FVec F S5000x128 .f32 := broadcastInDim S5000x128 ![] bcast_S_S5000x128 main_cst_2
  let main_v11 : IVec S5000x128 1 := cmpf .olt main_v9 main_v10
  let main_c_3 : IVec S_ 1 := constantI S_ 1 1#1
  let main_v12 : IVec S_ 1 := (fun x v => Host.reduce IntOp.andi x v reducesTo_S5000x128_S_d0_1 h_S_) main_v11 main_c_3
  let main_v13 : IVec S_ 1 := andi main_v8 main_v12
  main_v13
-- ==== Kernel.lean ====
abbrev S10000x10000 : Shape := ⟨2, ![10000, 10000]⟩
abbrev S5000x128 : Shape := ⟨2, ![5000, 128]⟩
abbrev S10000x128 : Shape := ⟨2, ![10000, 128]⟩
abbrev S200x10000 : Shape := ⟨2, ![200, 10000]⟩
abbrev S200x128 : Shape := ⟨2, ![200, 128]⟩

abbrev nBuf : Space → Nat
  | .hbm => 5
  | .vmem => 5
  | .smem => 0
  | _ => 0

abbrev bufTy : (tb : Table) → Fin (tcTables nBuf tb) → BufTy
  | .hbm, ⟨0, _⟩ => ⟨S10000x10000, .f32⟩
  | .hbm, ⟨1, _⟩ => ⟨S5000x128, .f32⟩
  | .hbm, ⟨2, _⟩ => ⟨S5000x128, .f32⟩
  | .hbm, ⟨3, _⟩ => ⟨S10000x128, .f32⟩
  | .hbm, ⟨4, _⟩ => ⟨S5000x128, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S200x128, .f32⟩
  | .local _ .vmem, ⟨4, _⟩ => ⟨S200x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S5000x128_S5000x128_S10000x128_d0 : Shape.Concatenates [S5000x128, S5000x128] S10000x128 0
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S200x128_S200x128_0_0 : ∀ a, (![0, 0] : Fin 2 → Nat) a + S200x128.size a ≤ S200x128.size a
  h_S200x128 : 0 < S200x128.numel
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x128.size a ≤ S5000x128.size a
  hwx0_2 : ∀ i : grid0.Coords, EltTy.bits .f32 = 32 ∨ (Rect.block (s := S5000x128) S200x128.size (cc0_transform_2 i) (hinb0_2 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S200x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S5000x128 : Shape := ⟨2, ![5000, 128]⟩
abbrev S10000x128 : Shape := ⟨2, ![10000, 128]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S5000x128, .f32⟩
  | .hbm, ⟨2, _⟩ => ⟨S5000x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .i1⟩
  | .hbm, ⟨8, _⟩ => ⟨S_, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S10000x128, .f32⟩
  | .hbm, ⟨18, _⟩ => ⟨S10000x128, .i1⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S10000x128, .f32⟩
  | .hbm, ⟨29, _⟩ => ⟨S10000x128, .i1⟩
  | .hbm, ⟨30, _⟩ => ⟨S_, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S_, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S10000x128, .f32⟩
  | .hbm, ⟨40, _⟩ => ⟨S10000x128, .i1⟩
  | .hbm, ⟨41, _⟩ => ⟨S_, .f32⟩
  | .hbm, ⟨42, _⟩ => ⟨S10000x128, .f32⟩
  | .hbm, ⟨43, _⟩ => ⟨S10000x128, .f32⟩
  | .hbm, ⟨44, _⟩ => ⟨S10000x128, .f32⟩
  | .hbm, ⟨45, _⟩ => ⟨S_, .f32⟩
  | .hbm, ⟨46, _⟩ => ⟨S10000x128, .f32⟩
  | .hbm, ⟨47, _⟩ => ⟨S10000x128, .f32⟩
  | .hbm, ⟨48, _⟩ => ⟨S10000x128, .f32⟩
  | .hbm, ⟨49, _⟩ => ⟨S10000x128, .f32⟩
  | .hbm, ⟨50, _⟩ => ⟨S10000x128, .f32⟩
  | .hbm, ⟨51, _⟩ => ⟨S5000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call1_cst : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call3_cst : Ref sig .tc := ⟨.hbm, 23, rfl⟩
abbrev main_call3_v0 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call5_cst : Ref sig .tc := ⟨.hbm, 34, rfl⟩
abbrev main_call5_v0 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call7_cst : Ref sig .tc := ⟨.hbm, 45, rfl⟩
abbrev main_call7_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  concatenates_S5000x128_S5000x128_S10000x128_d0 : Shape.Concatenates [S5000x128, S5000x128] S10000x128 0
  bcast_S_S10000x128 : S_.BroadcastsInDim S10000x128 (![] : Fin 0 → Fin S10000x128.rank)
  slices_S10000x128_S5000x128_0_0 : S10000x128.Slices ![0, 0] S5000x128
  dot_S10000x10000_S10000x128_S10000x128_1_0_0_1_n_n_wf : DotDims.WF S10000x10000 S10000x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.ReluLaw.lean ====
/-
  The scalar law that joins the two programs, on the extended reals.

  The kernel computes `4 · max h 0` of a dot product `h`; the reference computes, four times over, the
  leaky rectifier of slope 1/2 followed by the rectifier, `t = max (if 0 < h then h else (1/2) · h) 0`, and adds
  the four copies, `((t + t) + t) + t`. For every extended real `h` the two agree: above zero both rectifiers
  are the identity and `h + h + h + h = 4 · h` (also at `+∞`); at or below zero `(1/2) · h ≤ 0`, so `t = 0`
  and `max h 0 = 0` (also at `-∞`). No finiteness is needed.
-/
import Idealize.ShloMosaic.PureOps.Ideal
import Idealize.ShloMosaic.PureOps.Ideal.Laws

noncomputable section

namespace Cert.ReluLaw

open Idealize.ShloMosaic

/-- The word `4.0` denotes the real `4`. -/
theorem ofBits_four : Ideal.ofBits .f32 0x40800000#32 = ((4 : ℝ) : EReal) := by
  simp [Ideal.ofBits, Ideal.ieee, -EReal.coe_mul]; norm_num

/-- The word `0.5` denotes the real `1/2`. -/
theorem ofBits_half : Ideal.ofBits .f32 0x3F000000#32 = ((1 / 2 : ℝ) : EReal) := by
  simp [Ideal.ofBits, Ideal.ieee, -EReal.coe_mul]; norm_num

/-- The leaky rectifier of slope 1/2 followed by the rectifier. -/
def lrelu (h : EReal) : EReal := max (if 0 < h then h else ((1 / 2 : ℝ) : EReal) * h) 0

/-- The rectifier swallows the leaky one: `lrelu h = max h 0`. -/
theorem lrelu_eq (h : EReal) : lrelu h = max h 0 := by
  unfold lrelu
  induction h using EReal.rec with
  | bot =>
    have h0 : ¬ (0 : EReal) < ⊥ := not_lt_bot
    rw [if_neg h0, EReal.coe_mul_bot_of_pos (by norm_num : (0 : ℝ) < 1 / 2)]
  | top => rw [if_pos EReal.zero_lt_top]
  | coe x =>
    by_cases hx : 0 < x
    · have h0 : (0 : EReal) < (x : EReal) := by exact_mod_cast hx
      rw [if_pos h0]
    · have h0 : ¬ (0 : EReal) < (x : EReal) := by exact_mod_cast hx
      have hx' : x ≤ 0 := not_lt.mp hx
      have h1 : (x : EReal) ≤ 0 := by exact_mod_cast hx'
      have h2 : ((1 / 2 : ℝ) : EReal) * (x : EReal) ≤ 0 := by
        rw [← EReal.coe_mul]; exact_mod_cast (by nlinarith : (1 / 2 : ℝ) * x ≤ 0)
      rw [if_neg h0, max_eq_right h2, max_eq_right h1]

/-- Four copies of a nonnegative extended real add up to four times it. -/
theorem four_mul_max (h : EReal) : ((4 : ℝ) : EReal) * max h 0 = max h 0 + max h 0 + max h 0 + max h 0 := by
  induction h using EReal.rec with
  | bot => simp
  | top =>
    rw [max_eq_left le_top, EReal.coe_mul_top_of_pos (by norm_num : (0 : ℝ) < 4)]
    simp
  | coe x =>
    by_cases hx : 0 ≤ x
    · have h1 : (0 : EReal) ≤ (x : EReal) := by exact_mod_cast hx
      rw [max_eq_left h1]
      norm_cast
      ring
    · have h1 : (x : EReal) ≤ 0 := by exact_mod_cast (not_le.mp hx).le
      rw [max_eq_right h1]
      simp

/-- The law: `4 · max h 0 = ((t + t) + t) + t` with `t = lrelu h`. -/
theorem four_relu (h : EReal) : ((4 : ℝ) : EReal) * max h 0 = lrelu h + lrelu h + lrelu h + lrelu h := by
  rw [lrelu_eq]; exact four_mul_max h

end Cert.ReluLaw

end
-- ==== Proof.GcnSpec.lean ====
/-
  The specification: what both programs compute, as one function of the adjacency matrix and of the
  embedding table (the two embedding arguments stacked), index by index on the extended reals.

  Entry `(r, j)` of the result, for `r < 5000` and `j < 128`, is `4 · max (∑ k, adj[r, k] · emb[k, j]) 0`:
  four times the rectified dot product of row `r` of the adjacency matrix with column `j` of the table. Only
  the top 5000 rows of the adjacency matrix are read.

  Also here: one element of the reference, as the operations spell it, is that value (`refElt_eq`): the
  compare-and-select against zero is the `if` of the leaky rectifier, and the scalar law does the rest.
-/
import Idealize.ShloMosaic.PureOps.Ideal
import Idealize.ShloMosaic.PureOps.Ideal.Laws
import Idealize.ShloMosaic.Lib.ValueIdx
import proofs.«136863_g85667417686486_cont_sun_m_847_12_alg».proof.Proof.ReluLaw

noncomputable section

open scoped BigOperators

namespace Cert.GcnSpec

open Idealize.ShloMosaic Idealize.ShloMosaic.ValueIdx

/-- The dot product of row `r` of the adjacency matrix with column `j` of the embedding table. -/
def rowDot (a : (⟨2, ![10000, 10000]⟩ : Shape).Idx → EReal) (e : (⟨2, ![10000, 128]⟩ : Shape).Idx → EReal)
    (r : Fin 10000) (j : Fin 128) : EReal :=
  ∑ k : Fin 10000, a (ix2 r k) * e (ix2 k j)

/-- A row of the result as a row of the whole adjacency matrix (its top half). -/
def topRow (r : Fin 5000) : Fin 10000 := ⟨r.val, by have := r.isLt; omega⟩

/-- The result array: `4 · max (adj[r, :] · emb[:, j]) 0` over the top 5000 rows. -/
def gcn (a : (⟨2, ![10000, 10000]⟩ : Shape).Idx → EReal) (e : (⟨2, ![10000, 128]⟩ : Shape).Idx → EReal) :
    (⟨2, ![5000, 128]⟩ : Shape).Idx → EReal :=
  fun i => ((4 : ℝ) : EReal) * max (rowDot a e (topRow (i 0)) (i 1)) 0

/-- One layer of the reference at one element, as its operations spell it: compare with zero, select between
    the value and half of it, then the maximum with zero. -/
def refLayer (h : Ideal .f32) : Ideal .f32 :=
  FloatOps.maximumf (F := Ideal)
    (Scalar.select (FloatOps.cmpf (F := Ideal) .ogt h (FloatOps.ofBits .f32 0x00000000#32)) h
      (FloatOps.mulf (F := Ideal) (FloatOps.ofBits .f32 0x3F000000#32) h))
    (FloatOps.ofBits .f32 0x00000000#32)

/-- That layer is the leaky rectifier followed by the rectifier. -/
theorem refLayer_eq (h : Ideal .f32) : refLayer h = Cert.ReluLaw.lrelu h := by
  unfold refLayer Cert.ReluLaw.lrelu
  simp only [Ideal.maximumf_def, Ideal.mulf_def, Ideal.ofBits_def, Ideal.ofBits_zero_f32, Cert.ReluLaw.ofBits_half]
  show max (Scalar.select (Ideal.cmp .ogt h 0) h _) 0 = _
  by_cases h0 : (0 : EReal) < h
  · rw [if_pos h0]
    have : Ideal.cmp .ogt h 0 = 1 := by simp [Ideal.cmp, h0]
    rw [this]; rfl
  · rw [if_neg h0]
    have : Ideal.cmp .ogt h 0 = 0 := by simp [Ideal.cmp, h0]
    rw [this]; rfl

/-- One element of the reference: the four layers' sum is four times the rectified dot product. -/
theorem refElt_eq (h : Ideal .f32) :
    FloatOps.addf (F := Ideal) (FloatOps.addf (F := Ideal) (FloatOps.addf (F := Ideal) (refLayer h) (refLayer h)) (refLayer h)) (refLayer h)
      = ((4 : ℝ) : EReal) * max h 0 := by
  simp only [Ideal.addf_def, refLayer_eq]
  exact (Cert.ReluLaw.four_relu h).symm

/-- One element of the kernel: the broadcast `4.0` times the maximum with the broadcast `0.0`. -/
theorem kerElt_eq (h : Ideal .f32) :
    FloatOps.mulf (F := Ideal) (FloatOps.ofBits .f32 0x40800000#32) (FloatOps.maximumf (F := Ideal) h (FloatOps.ofBits .f32 0x00000000#32))
      = ((4 : ℝ) : EReal) * max h 0 := by
  simp only [Ideal.maximumf_def, Ideal.mulf_def, Ideal.ofBits_def, Ideal.ofBits_zero_f32, Cert.ReluLaw.ofBits_four]

end Cert.GcnSpec

end
-- ==== Proof.KernelValue.lean ====
/-
  The kernel, read index by index, is the specification.

  Grid point `t` (of 25) stages rows `200·t … 200·t + 199` of the adjacency matrix and the whole stacked table,
  multiplies them on the matrix unit into a zero accumulator, rectifies, scales by four, and writes the
  `[200, 128]` result back as block `t` of the `[5000, 128]` output. So entry `(p, q)` of what point `t` writes is
  `4 · max (∑ k, adj[200·t + p, k] · emb[k, q]) 0`: entry `(200·t + p, q)` of `gcn adj emb`. The 25 blocks tile
  the output (row `r` lies in block `r / 200`), so the output array ends holding `gcn adj emb`. The stacked table
  is what the one host operation before the call, the concatenation of the two embedding arguments, wrote.
-/
import proofs.«136863_g85667417686486_cont_sun_m_847_12_alg».proof.Proof.Gen.KernelIdeal.Value
import proofs.«136863_g85667417686486_cont_sun_m_847_12_alg».proof.Proof.GcnSpec
import Idealize.ShloMosaic.Lib.Pipeline.Value
import Idealize.ShloMosaic.Lib.ValueIdx
import Idealize.ShloMosaic.PureOps.Ideal.Laws
import Idealize.ShloMosaic.Lib.StableHlo.Run
import Idealize.ShloMosaic.Lib.Tactic

noncomputable section

open scoped BigOperators

namespace Cert.KernelIdeal.KerValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

/-! ## The matrix product at an entry -/

/-- The left operand's row coordinate is the result's. -/
theorem lhs_row (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
/-- The left operand's column coordinate is the contracted one. -/
theorem lhs_col (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
/-- The right operand's row coordinate is the contracted one. -/
theorem rhs_row (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
/-- The right operand's column coordinate is the result's. -/
theorem rhs_col (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The matrix unit's product into a zero accumulator, at entry `i`, is the sum over the 10000 contracted
    positions of the left row's entry times the right column's. -/
theorem matmul_at (x0 : FVec Ideal S200x10000 .f32) (x1 : FVec Ideal S10000x128 .f32) (i : S200x128.Idx) :
    FloatOps.matmul (F := Ideal) dot_S200x10000_S10000x128_S200x128_1_0_0_1_n_n none x0 x1 (constant S200x128 .f32 0x00000000#32) i
      = ∑ k : Fin 10000, x0 (ix2 (i 0) k) * x1 (ix2 k (i 1)) := by
  rw [Ideal.matmul_constant_zero_apply, ← Equiv.sum_comp (ValueIdx.contrEquiv1 dot_S200x10000_S10000x128_S200x128_1_0_0_1_n_n 10000 rfl rfl).symm]
  refine Finset.sum_congr rfl fun k _ => ?_
  have hk := ValueIdx.contrEquiv1_symm_val dot_S200x10000_S10000x128_S200x128_1_0_0_1_n_n 10000 rfl rfl k
  have el : dot_S200x10000_S10000x128_S200x128_1_0_0_1_n_n.lhsIdx i ((ValueIdx.contrEquiv1 dot_S200x10000_S10000x128_S200x128_1_0_0_1_n_n 10000 rfl rfl).symm k) = ix2 (i 0) k := funext fun a => Fin.ext (by
    match a with
    | ⟨0, _⟩ => exact lhs_row _ _
    | ⟨1, _⟩ => exact (lhs_col _ _).trans hk)
  have er : dot_S200x10000_S10000x128_S200x128_1_0_0_1_n_n.rhsIdx i ((ValueIdx.contrEquiv1 dot_S200x10000_S10000x128_S200x128_1_0_0_1_n_n 10000 rfl rfl).symm k) = ix2 k (i 1) := funext fun a => Fin.ext (by
    match a with
    | ⟨0, _⟩ => exact (rhs_row _ _).trans hk
    | ⟨1, _⟩ => exact rhs_col _ _)
  rw [el, er]
  rfl

/-! ## The body's stored value at an entry -/

/-- What the body stores, at entry `i` of its `[200, 128]` block: four times the rectified dot product of row `i 0`
    of the staged adjacency rows with column `i 1` of the staged table. -/
theorem pay_at (x0 : Vec Ideal S200x10000 .f32) (x1 : Vec Ideal S10000x128 .f32) (i : S200x128.Idx) :
    k0_pay1 (F := Ideal) x0 x1 i = ((4 : ℝ) : EReal) * max (∑ k : Fin 10000, x0 (ix2 (i 0) k) * x1 (ix2 k (i 1))) 0 := by
  unfold k0_pay1
  show FloatOps.mulf (F := Ideal) (FloatOps.ofBits .f32 0x40800000#32)
      (FloatOps.maximumf (F := Ideal)
        (FloatOps.matmul (F := Ideal) dot_S200x10000_S10000x128_S200x128_1_0_0_1_n_n none x0 (shapeCast S10000x128 x1 shapeCasts_S10000x128_S10000x128) (constant S200x128 .f32 0x00000000#32) i)
        (FloatOps.ofBits .f32 0x00000000#32)) = _
  rw [shapeCast_self, Cert.GcnSpec.kerElt_eq, matmul_at]

/-- The same, against the arrays the blocks were cut from: if the staged rows are rows `200·n + p` of `A` and the
    staged table is `E`, entry `j` of the stored block is entry `i` of `gcn A E` whenever `i` is `j` moved down by
    `200·n` rows. -/
theorem block_at (A : S10000x10000.Idx → EReal) (E : S10000x128.Idx → EReal)
    (x0 : Vec Ideal S200x10000 .f32) (x1 : Vec Ideal S10000x128 .f32) (n : Nat)
    (h0 : ∀ (p : Fin 200) (k : Fin 10000) (r : Fin 10000), r.val = 200 * n + p.val → x0 (ix2 p k) = A (ix2 r k))
    (h1 : ∀ y : S10000x128.Idx, x1 y = E y)
    (j : S200x128.Idx) (i : S5000x128.Idx) (hi0 : (i 0).val = 200 * n + (j 0).val) (hi1 : (i 1).val = (j 1).val) :
    k0_pay1 (F := Ideal) x0 x1 j = Cert.GcnSpec.gcn A E i := by
  rw [pay_at]
  unfold Cert.GcnSpec.gcn Cert.GcnSpec.rowDot
  have e1 : j 1 = i 1 := Fin.ext hi1.symm
  congr 2
  refine Finset.sum_congr rfl fun k _ => ?_
  rw [h0 (j 0) k (Cert.GcnSpec.topRow (i 0)) hi0, h1, e1]

/-! ## What a grid point writes back -/

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 25 grid points: the adjacency window and the output window sit at
    row block `t`, column block 0; the table's window never moves. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The staged adjacency block at point `t` is rows `200·t + p` of the adjacency matrix. -/
theorem adj_block (c : Dev nD) (t : Fin cfg0.N) (p : Fin 200) (k : Fin 10000) (r : Fin 10000) (hr : r.val = 200 * t.val + p.val) :
    (iblk m c 0 t : Vec Ideal S200x10000 .f32) (ix2 p k) = (V m c main_arg0 : S10000x10000.Idx → EReal) (ix2 r k) := by
  obtain ⟨e0, e1, -⟩ := index_facts t
  show V m c main_arg0 (((cfg0.win 0).blk t).view.emb (ix2 p k)) = V m c main_arg0 (ix2 r k)
  congr 1
  funext a; apply Fin.ext
  match a with
  | ⟨0, _⟩ => show win0_0.index t (0 : Fin 2) * 200 + 1 * p.val = r.val; rw [e0, hr]; omega
  | ⟨1, _⟩ => show win0_0.index t (1 : Fin 2) * 10000 + 1 * k.val = k.val; rw [e1]; omega

/-- The staged table at every point is the whole stacked table. -/
theorem emb_block (c : Dev nD) (t : Fin cfg0.N) (y : S10000x128.Idx) :
    (iblk m c 1 t : Vec Ideal S10000x128 .f32) y = (V m c main_v0 : S10000x128.Idx → EReal) y := by
  obtain ⟨-, -, e2, e3, -⟩ := index_facts t
  show V m c main_v0 (((cfg0.win 1).blk t).view.emb y) = V m c main_v0 y
  congr 1
  funext a; apply Fin.ext
  match a with
  | ⟨0, _⟩ => show win0_1.index t (0 : Fin 2) * 10000 + 1 * (y 0).val = (y 0).val; rw [e2]; omega
  | ⟨1, _⟩ => show win0_1.index t (1 : Fin 2) * 128 + 1 * (y 1).val = (y 1).val; rw [e3]; omega

/-- WHAT POINT `t` WRITES BACK is block `t` of `gcn` of the adjacency matrix and the stacked table as the call finds them. -/
theorem flushed_eq (c : Dev nD) (t : Fin cfg0.N) :
    (dats m 0 c).flushed 2 t = ((cfg0.win 2).blk t).view.read (Elt Ideal) (Cert.GcnSpec.gcn (V m c main_arg0) (V m c main_v0)) := by
  rw [Value.flushed2]
  unfold out0_2
  rw [View.canon_unit_zero zero_offsets]
  simp only [View.ld_unit_zero (S := S200x10000) zero_offsets, View.ld_unit_zero (S := S10000x128) zero_offsets]
  obtain ⟨-, -, -, -, e4, e5⟩ := index_facts t
  funext j
  show k0_pay1 (F := Ideal) (iblk m c 0 t) (iblk m c 1 t) j = Cert.GcnSpec.gcn (V m c main_arg0) (V m c main_v0) (((cfg0.win 2).blk t).view.emb j)
  refine block_at (V m c main_arg0) (V m c main_v0) (iblk m c 0 t) (iblk m c 1 t) t.val
    (fun p k r hr => adj_block m c t p k r hr) (fun y => emb_block m c t y) j (((cfg0.win 2).blk t).view.emb j) ?_ ?_
  · show win0_2.index t (0 : Fin 2) * 200 + 1 * (j 0).val = 200 * t.val + (j 0).val; rw [e4]; omega
  · show win0_2.index t (1 : Fin 2) * 128 + 1 * (j 1).val = (j 1).val; rw [e5]; omega

/-! ## The blocks tile the output -/

/-- An index of the output is in point `t`'s block iff each coordinate is in the block's range on its axis. -/
theorem mem_block (t : Fin cfg0.N) (i : S5000x128.Idx) :
    i ∈ ((cfg0.win 2).blk t).view.set ↔ ∀ a : Fin 2, win0_2.index t a * S200x128.size a ≤ (i a).val ∧ (i a).val < win0_2.index t a * S200x128.size a + S200x128.size a := by
  show i ∈ ((View.whole main_v1).slice (win0_2.rect t)).set ↔ _
  rw [View.set_slice_whole, Rect.mem_set_unit]
  exact Iff.rfl

/-- Row `r` of the output lies in the block of point `r / 200`. -/
theorem covered (i : S5000x128.Idx) : ∃ t : Fin cfg0.N, (cfg0.win 2).flush t = true ∧ i ∈ ((cfg0.win 2).blk t).view.set := by
  have hi0 : (i 0).val < 5000 := (i 0).isLt
  have hi1 : (i 1).val < 128 := (i 1).isLt
  have hN : cfg0.N = 25 := N_0
  let t : Fin cfg0.N := ⟨(i 0).val / 200, by rw [hN]; omega⟩
  have ht : t.val = (i 0).val / 200 := rfl
  obtain ⟨-, -, -, -, e4, e5⟩ := index_facts t
  refine ⟨t, flush0_2 t, ?_⟩
  rw [mem_block]
  intro a
  match a with
  | ⟨0, _⟩ => show win0_2.index t (0 : Fin 2) * 200 ≤ (i 0).val ∧ (i 0).val < win0_2.index t (0 : Fin 2) * 200 + 200; rw [e4, ht]; omega
  | ⟨1, _⟩ => show win0_2.index t (1 : Fin 2) * 128 ≤ (i 1).val ∧ (i 1).val < win0_2.index t (1 : Fin 2) * 128 + 128; rw [e5]; omega

/-- THE OUTPUT ARRAY after the run is `gcn` of the adjacency matrix and the stacked table as the call finds them. -/
theorem final_out (c : Dev nD) : (dats m 0 c).arrAt 2 cfg0.N = Cert.GcnSpec.gcn (V m c main_arg0) (V m c main_v0) :=
  (dats m 0 c).arrAt_eq_of_cover 2 (Cert.GcnSpec.gcn (V m c main_arg0) (V m c main_v0)) (fun t _ => flushed_eq m c t) covered

/-! ## The arrays the call finds -/

/-- The stacked table the call finds is the concatenation of the two embedding arguments, written by the one
    host operation before it. -/
theorem table_eq (c : Dev nD) :
    (V m c main_v0 : S10000x128.Idx → EReal)
      = concatenate S10000x128 0 [⟨S5000x128, m ((c : Thread nD τ).loc main_arg1)⟩, ⟨S5000x128, m ((c : Thread nD τ).loc main_arg2)⟩] concatenates_S5000x128_S5000x128_S10000x128_d0 := by
  dsimp only [V, hostOps0]
  after_results

/-! ## The run, read -/

/-- Every weakly fair execution of the kernel's program terminates with the output at `gcn` of the adjacency
    argument and the concatenated embedding arguments, the arguments unchanged. -/
theorem run : θ_run defs (onTc (τ := τ) (main (F := Ideal))) ⟨m, fun _ => 0, ρ⟩ fun r => ∀ c : Dev nD,
      r.2.mem ((c : Thread nD τ).loc main_v1)
        = Cert.GcnSpec.gcn (m ((c : Thread nD τ).loc main_arg0))
            (concatenate S10000x128 0 [⟨S5000x128, m ((c : Thread nD τ).loc main_arg1)⟩, ⟨S5000x128, m ((c : Thread nD τ).loc main_arg2)⟩] concatenates_S5000x128_S5000x128_S10000x128_d0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (by rw [final_out m c, table_eq m c, V_main_arg0 m c]), (h c).2⟩)
    (Value.run_blocks m ρ)

end Cert.KernelIdeal.KerValue

end
-- ==== Proof.RefValue.lean ====
/-
  The reference, read index by index, is the specification.

  Its four matrix products are one and the same sum (row of the adjacency matrix against column of the stacked
  table); each layer is `refLayer` of that sum; the three additions and the final slice of the top 5000 rows give
  `4 · max (row · column) 0` by the scalar law.
-/
import proofs.«136863_g85667417686486_cont_sun_m_847_12_alg».proof.Proof.Gen.ReferenceIdeal.Read
import proofs.«136863_g85667417686486_cont_sun_m_847_12_alg».proof.Proof.GcnSpec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The first matrix product at an index is the row-by-column sum of the specification. -/
theorem dot_eq (x0 : (⟨S10000x10000, .f32⟩ : BufTy).Contents (Elt Ideal)) (x1 x2 : (⟨S5000x128, .f32⟩ : BufTy).Contents (Elt Ideal)) (i : S10000x128.Idx) :
    val_main_v1 (F := Ideal) x0 x1 x2 i = Cert.GcnSpec.rowDot x0 (val_main_v0 (F := Ideal) x1 x2) (i 0) (i 1) := by
  rw [val_main_v1_apply]
  unfold Cert.GcnSpec.rowDot
  refine Finset.sum_congr rfl fun k _ => ?_
  have el : lidx_main_v1 i k = ix2 (i 0) k := funext fun a => by match a with | ⟨0, _⟩ => rfl | ⟨1, _⟩ => rfl
  have er : ridx_main_v1 i k = ix2 k (i 1) := funext fun a => by match a with | ⟨0, _⟩ => rfl | ⟨1, _⟩ => rfl
  rw [el, er]
  rfl

/-- The other three matrix products are the first one: the same operands, the same dimension numbers. -/
theorem dot2_eq (x0 : (⟨S10000x10000, .f32⟩ : BufTy).Contents (Elt Ideal)) (x1 x2 : (⟨S5000x128, .f32⟩ : BufTy).Contents (Elt Ideal)) :
    val_main_v8 (F := Ideal) x0 x1 x2 = val_main_v1 (F := Ideal) x0 x1 x2 := rfl
theorem dot3_eq (x0 : (⟨S10000x10000, .f32⟩ : BufTy).Contents (Elt Ideal)) (x1 x2 : (⟨S5000x128, .f32⟩ : BufTy).Contents (Elt Ideal)) :
    val_main_v15 (F := Ideal) x0 x1 x2 = val_main_v1 (F := Ideal) x0 x1 x2 := rfl
theorem dot4_eq (x0 : (⟨S10000x10000, .f32⟩ : BufTy).Contents (Elt Ideal)) (x1 x2 : (⟨S5000x128, .f32⟩ : BufTy).Contents (Elt Ideal)) :
    val_main_v22 (F := Ideal) x0 x1 x2 = val_main_v1 (F := Ideal) x0 x1 x2 := rfl

/-- Layer 1 of the reference at an index: the compare, the product with one half, the select and the maximum with
    zero, read one operation at a time, are `refLayer` of the layer's dot product there. -/
theorem layer1 (x0 : (⟨S10000x10000, .f32⟩ : BufTy).Contents (Elt Ideal)) (x1 x2 : (⟨S5000x128, .f32⟩ : BufTy).Contents (Elt Ideal)) (i : S10000x128.Idx) :
    val_main_v7 (F := Ideal) x0 x1 x2 i = Cert.GcnSpec.refLayer (val_main_v1 (F := Ideal) x0 x1 x2 i) := by
  rw [val_main_v7_apply, val_main_v6_apply, val_main_v3_apply, val_main_v5_apply, val_main_v2_apply, val_main_v4_apply, val_main_call1_v0_apply,
    val_main_cst_apply, val_main_cst_0_apply, val_main_call1_cst_apply]
  rfl

/-- Layer 2 of the reference at an index: the compare, the product with one half, the select and the maximum with
    zero, read one operation at a time, are `refLayer` of the layer's dot product there. -/
theorem layer2 (x0 : (⟨S10000x10000, .f32⟩ : BufTy).Contents (Elt Ideal)) (x1 x2 : (⟨S5000x128, .f32⟩ : BufTy).Contents (Elt Ideal)) (i : S10000x128.Idx) :
    val_main_v14 (F := Ideal) x0 x1 x2 i = Cert.GcnSpec.refLayer (val_main_v8 (F := Ideal) x0 x1 x2 i) := by
  rw [val_main_v14_apply, val_main_v13_apply, val_main_v10_apply, val_main_v12_apply, val_main_v9_apply, val_main_v11_apply, val_main_call3_v0_apply,
    val_main_cst_1_apply, val_main_cst_2_apply, val_main_call3_cst_apply]
  rfl

/-- Layer 3 of the reference at an index: the compare, the product with one half, the select and the maximum with
    zero, read one operation at a time, are `refLayer` of the layer's dot product there. -/
theorem layer3 (x0 : (⟨S10000x10000, .f32⟩ : BufTy).Contents (Elt Ideal)) (x1 x2 : (⟨S5000x128, .f32⟩ : BufTy).Contents (Elt Ideal)) (i : S10000x128.Idx) :
    val_main_v21 (F := Ideal) x0 x1 x2 i = Cert.GcnSpec.refLayer (val_main_v15 (F := Ideal) x0 x1 x2 i) := by
  rw [val_main_v21_apply, val_main_v20_apply, val_main_v17_apply, val_main_v19_apply, val_main_v16_apply, val_main_v18_apply, val_main_call5_v0_apply,
    val_main_cst_3_apply, val_main_cst_4_apply, val_main_call5_cst_apply]
  rfl

/-- Layer 4 of the reference at an index: the compare, the product with one half, the select and the maximum with
    zero, read one operation at a time, are `refLayer` of the layer's dot product there. -/
theorem layer4 (x0 : (⟨S10000x10000, .f32⟩ : BufTy).Contents (Elt Ideal)) (x1 x2 : (⟨S5000x128, .f32⟩ : BufTy).Contents (Elt Ideal)) (i : S10000x128.Idx) :
    val_main_v28 (F := Ideal) x0 x1 x2 i = Cert.GcnSpec.refLayer (val_main_v22 (F := Ideal) x0 x1 x2 i) := by
  rw [val_main_v28_apply, val_main_v27_apply, val_main_v24_apply, val_main_v26_apply, val_main_v23_apply, val_main_v25_apply, val_main_call7_v0_apply,
    val_main_cst_5_apply, val_main_cst_6_apply, val_main_call7_cst_apply]
  rfl

/-- THE REFERENCE IS THE SPECIFICATION: its result, the top 5000 rows of the four layers' sum, is `gcn` of the adjacency
    matrix and the stacked table. -/
theorem result_eq (x0 : (⟨S10000x10000, .f32⟩ : BufTy).Contents (Elt Ideal)) (x1 x2 : (⟨S5000x128, .f32⟩ : BufTy).Contents (Elt Ideal)) :
    val_main_v32 (F := Ideal) x0 x1 x2 = Cert.GcnSpec.gcn x0 (val_main_v0 (F := Ideal) x1 x2) := by
  funext i
  rw [val_main_v32_apply, val_main_v31_apply, val_main_v30_apply, val_main_v29_apply, layer1, layer2, layer3, layer4,
    dot2_eq, dot3_eq, dot4_eq, Cert.GcnSpec.refElt_eq, dot_eq]
  rfl

end Cert.ReferenceIdeal.RefValue

end
-- ==== Proof.lean ====
/-
  The proof of `Cert.Claim`: the kernel `4 · relu (adj[:5000, :] @ concat (m1Embed, m2Embed))`, tiled over 25 row
  blocks of 200, against the reference that sums four identical layers `relu (leaky_relu (adj @ embeds, 0.5))` and
  keeps the top 5000 rows.

  On the extended reals both results are, at entry `(r, j)`, `4 · max (∑ k, adj[r, k] · emb[k, j]) 0` (Proof/GcnSpec.lean):
  the rectifier swallows the leaky rectifier, and four copies of a nonnegative extended real add up to four times it
  (Proof/ReluLaw.lean), at the infinities too, so the inputs' finiteness is never used. The kernel's array is read
  off its blocks in Proof/KernelValue.lean, the reference's operations one at a time in Proof/RefValue.lean. The two
  kernel frames are the generated frames; the reference's frame is its generated run with the result dropped;
  the idealization rewrote nothing, so `preserves` is trivial.
-/
import proofs.«136863_g85667417686486_cont_sun_m_847_12_alg».proof.Defs
import proofs.«136863_g85667417686486_cont_sun_m_847_12_alg».proof.Proof.Gen.Kernel
import proofs.«136863_g85667417686486_cont_sun_m_847_12_alg».proof.Proof.Gen.Kernel.Skeleton
import proofs.«136863_g85667417686486_cont_sun_m_847_12_alg».proof.Proof.Gen.Kernel.Launch
import proofs.«136863_g85667417686486_cont_sun_m_847_12_alg».proof.Proof.Gen.Kernel.Points
import proofs.«136863_g85667417686486_cont_sun_m_847_12_alg».proof.Proof.Gen.Kernel.Frame
import proofs.«136863_g85667417686486_cont_sun_m_847_12_alg».proof.Proof.Gen.KernelIdeal
import proofs.«136863_g85667417686486_cont_sun_m_847_12_alg».proof.Proof.Gen.KernelIdeal.Skeleton
import proofs.«136863_g85667417686486_cont_sun_m_847_12_alg».proof.Proof.Gen.KernelIdeal.Launch
import proofs.«136863_g85667417686486_cont_sun_m_847_12_alg».proof.Proof.Gen.KernelIdeal.Points
import proofs.«136863_g85667417686486_cont_sun_m_847_12_alg».proof.Proof.Gen.KernelIdeal.Frame
import proofs.«136863_g85667417686486_cont_sun_m_847_12_alg».proof.Proof.Gen.ReferenceIdeal
import proofs.«136863_g85667417686486_cont_sun_m_847_12_alg».proof.Proof.Gen.Pre_finite_inputs
import proofs.«136863_g85667417686486_cont_sun_m_847_12_alg».proof.Proof.Gen.KernelIdeal.Value
import proofs.«136863_g85667417686486_cont_sun_m_847_12_alg».proof.Proof.Gen.ReferenceIdeal.Run
import proofs.«136863_g85667417686486_cont_sun_m_847_12_alg».proof.Proof.Gen.ReferenceIdeal.Read
import proofs.«136863_g85667417686486_cont_sun_m_847_12_alg».proof.Proof.KernelValue
import proofs.«136863_g85667417686486_cont_sun_m_847_12_alg».proof.Proof.RefValue
import Idealize.ShloMosaic.Adequacy
import Idealize.ShloMosaic.Init

noncomputable section

namespace Cert.Proof

open Idealize.ShloMosaic Idealize.SL.Sem

/-- The kernel as printed runs and leaves its arguments alone: the generated frame. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference's frame is its run with the result dropped. -/
theorem frame_reference : Cert.frame_ReferenceIdeal :=
  fun m ρ _ => (θ_run Cert.ReferenceIdeal.defs _ _).mono (fun _ h c => (h c).2) (Cert.ReferenceIdeal.Value.run (F := Ideal) m ρ)

/-- From memories that agree on the three arguments, the kernel's output array and the reference's result both end
    at `gcn` of the adjacency argument and the concatenated embedding arguments. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
